-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 54
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S128x128, .f32⟩
  | .hbm, ⟨32, _⟩ => ⟨S128x128, .f32⟩
  | .hbm, ⟨33, _⟩ => ⟨S1x128, .f32⟩
  | .hbm, ⟨34, _⟩ => ⟨S100000x1, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S100000x1, .f32⟩
  | .hbm, ⟨53, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Spec.lean ====
/-
  One dense stage of the mean-aggregating graph layer, index by index over the extended reals.

  For node `p` and output feature `q`, with `s` the neighbour sums, `d` the in-degree, `x` the node's own features,
  `Wl`, `Wr` the two weight matrices (already transposed: read at (input feature, output feature)) and `b` the bias:

      out[p, q] = (∑ₖ (s[p, k] / max(d[p], 1)) · Wl[k, q]  +  ∑ₖ x[p, k] · Wr[k, q])  +  b[q].

  The first layer is followed by a rectifier, `max(·, 0)`; the second is not. The value at (p, q) depends on row `p`
  of `s` and `x`, on `d[p]`, on column `q` of the weights and on `b[q]` only — which is what lets a block of rows
  be computed from the same rows of the inputs. The three summands may be added in either grouping: addition of
  extended reals is commutative and associative, infinities included.
-/
import Idealize.ShloMosaic.PureOps.Ideal.Laws
import Idealize.ShloMosaic.Lib.ValueIdx

noncomputable section

namespace Cert.SageLayer

open Idealize.ShloMosaic Idealize.ShloMosaic.ValueIdx

/-- The extended reals the two float literals of the layer denote: the degree's floor `1.0` and the rectifier's `0.0`. -/
abbrev one : EReal := Ideal.ofBits .f32 0x3F800000#32
abbrev zero : EReal := Ideal.ofBits .f32 0x00000000#32

/-- Entry (p, q) of the dense stage over `N` nodes. -/
def denseAt {N : Nat} (s : (⟨2, ![N, 128]⟩ : Shape).Idx → EReal) (d : Fin N → EReal)
    (x : (⟨2, ![N, 128]⟩ : Shape).Idx → EReal) (wl wr : (⟨2, ![128, 128]⟩ : Shape).Idx → EReal) (b : Fin 128 → EReal)
    (p : Fin N) (q : Fin 128) : EReal :=
  ((∑ k : Fin 128, Ideal.div (s (ix2 p k)) (max (d p) one) * wl (ix2 k q)) + ∑ k : Fin 128, x (ix2 p k) * wr (ix2 k q)) + b q

/-- The same entry with the bias added before the second product: the grouping a plain array program uses. -/
theorem denseAt_bias_first {N : Nat} (s : (⟨2, ![N, 128]⟩ : Shape).Idx → EReal) (d : Fin N → EReal)
    (x : (⟨2, ![N, 128]⟩ : Shape).Idx → EReal) (wl wr : (⟨2, ![128, 128]⟩ : Shape).Idx → EReal) (b : Fin 128 → EReal)
    (p : Fin N) (q : Fin 128) :
    ((∑ k : Fin 128, Ideal.div (s (ix2 p k)) (max (d p) one) * wl (ix2 k q)) + b q) + (∑ k : Fin 128, x (ix2 p k) * wr (ix2 k q))
      = denseAt s d x wl wr b p q := by
  unfold denseAt
  exact add_right_comm _ _ _

/-- The entry depends only on row `p` of the two row-indexed inputs and on `d p`: two settings that agree there (at
    possibly different row numbers `p`, `p'` of arrays of different heights) give the same entry. -/
theorem denseAt_congr {N N' : Nat} {s : (⟨2, ![N, 128]⟩ : Shape).Idx → EReal} {s' : (⟨2, ![N', 128]⟩ : Shape).Idx → EReal}
    {d : Fin N → EReal} {d' : Fin N' → EReal}
    {x : (⟨2, ![N, 128]⟩ : Shape).Idx → EReal} {x' : (⟨2, ![N', 128]⟩ : Shape).Idx → EReal}
    (wl wr : (⟨2, ![128, 128]⟩ : Shape).Idx → EReal) {b b' : Fin 128 → EReal} {p : Fin N} {p' : Fin N'} (q : Fin 128)
    (hs : ∀ k : Fin 128, s (ix2 p k) = s' (ix2 p' k)) (hd : d p = d' p')
    (hx : ∀ k : Fin 128, x (ix2 p k) = x' (ix2 p' k)) (hb : b q = b' q) :
    denseAt s d x wl wr b p q = denseAt s' d' x' wl wr b' p' q := by
  unfold denseAt
  rw [hd, hb]
  congr 2
  · exact Finset.sum_congr rfl fun k _ => by rw [hs k]
  · exact Finset.sum_congr rfl fun k _ => by rw [hx k]

/-- The first layer's output array: the dense stage followed by the rectifier. -/
def layer1 (s : (⟨2, ![100000, 128]⟩ : Shape).Idx → EReal) (d : Fin 100000 → EReal)
    (x : (⟨2, ![100000, 128]⟩ : Shape).Idx → EReal) (wl wr : (⟨2, ![128, 128]⟩ : Shape).Idx → EReal) (b : Fin 128 → EReal) :
    (⟨2, ![100000, 128]⟩ : Shape).Idx → EReal :=
  fun i => max (denseAt s d x wl wr b (i 0) (i 1)) zero

/-- The second layer's output array: the dense stage alone. -/
def layer2 (s : (⟨2, ![100000, 128]⟩ : Shape).Idx → EReal) (d : Fin 100000 → EReal)
    (x : (⟨2, ![100000, 128]⟩ : Shape).Idx → EReal) (wl wr : (⟨2, ![128, 128]⟩ : Shape).Idx → EReal) (b : Fin 128 → EReal) :
    (⟨2, ![100000, 128]⟩ : Shape).Idx → EReal :=
  fun i => denseAt s d x wl wr b (i 0) (i 1)

/-- Both layers in sequence: `agg` turns node features into neighbour sums (the same gather and scatter-add for both
    layers, over the same edge list), `d` is the in-degree. -/
def twoLayers (agg : ((⟨2, ![100000, 128]⟩ : Shape).Idx → EReal) → ((⟨2, ![100000, 128]⟩ : Shape).Idx → EReal))
    (d : Fin 100000 → EReal) (x : (⟨2, ![100000, 128]⟩ : Shape).Idx → EReal)
    (wl1 wr1 : (⟨2, ![128, 128]⟩ : Shape).Idx → EReal) (b1 : Fin 128 → EReal)
    (wl2 wr2 : (⟨2, ![128, 128]⟩ : Shape).Idx → EReal) (b2 : Fin 128 → EReal) :
    (⟨2, ![100000, 128]⟩ : Shape).Idx → EReal :=
  layer2 (agg (layer1 (agg x) d x wl1 wr1 b1)) d (layer1 (agg x) d x wl1 wr1 b1) wl2 wr2 b2

end Cert.SageLayer

end
-- ==== Proof.KPayload.lean ====
/-
  The two kernel bodies' stored values, read at one entry of the block.
-/
import proofs.«152677_j5428838662375_1_alg».proof.Proof.Gen.KernelIdeal.Skeleton
import proofs.«152677_j5428838662375_1_alg».proof.Proof.LibMatmulAt
import proofs.«152677_j5428838662375_1_alg».proof.Proof.Spec
import Idealize.ShloMosaic.Lib.Pipeline.Value
import Idealize.ShloMosaic.Lib.ValueLayout

noncomputable section

namespace Cert.KernelIdeal.BlockValue

open Cert.KernelIdeal Cert.KernelIdeal.Gen Idealize.ShloMosaic Idealize.ShloMosaic.ValueIdx Cert.SageLayer

/-! ### Where the kernel's dimension numbers read their operands

The record contracts the left operand's axis 1 with the right operand's axis 0 and has no batch axis: the left operand
is read at (row, k), the right at (k, column). One fact per operand axis. -/

theorem dot_lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem dot_lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

theorem dot_rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

theorem dot_rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of a product of the kernel's kind into the zero accumulator: the sum over the 128 contracted
    positions of left[p, k] · right[k, q]. -/
theorem mm_at {φ₁ φ₂ : FTy} (l : FVec Ideal S5000x128 φ₁) (r : FVec Ideal S128x128 φ₂) (p : Fin 5000) (q : Fin 128) :
    FloatOps.matmul dot_S5000x128_S128x128_S5000x128_1_0_0_1_n_n none l r
        (constant (F := Ideal) S5000x128 .f32 0x00000000#32) (ix2 p q)
      = ∑ k : Fin 128, l (ix2 p k) * r (ix2 k q) :=
  MatmulAt.matmul_zero_at dot_S5000x128_S128x128_S5000x128_1_0_0_1_n_n rfl rfl dot_lhs_0 dot_lhs_1 dot_rhs_0 dot_rhs_1
    none l r p q

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mean at (p, k): the neighbour sum over the degree floored at one. The degree is a [5000, 1] column broadcast
    along the lanes, so row p reads its own degree whatever the lane. -/
theorem mean_at (v0 : Vec Ideal S5000x1 .f32) (v4 : Vec Ideal S5000x128 .f32) (p : Fin 5000) (k : Fin 128) :
    divf (shapeCast S5000x128 v4 shapeCasts_S5000x128_S5000x128)
        (broadcastTo S5000x128
          (maximumf (shapeCast S5000x1 v0 shapeCasts_S5000x1_S5000x1)
            (broadcast S5000x1 (Scalar.ofBits (F := Ideal) .f32 0x3F800000#32)))
          broadcasts_S5000x1_S5000x128) (ix2 p k)
      = Ideal.div (v4 (ix2 p k)) (max (v0 (ix2 p (0 : Fin 1))) one) := by
  rw [shapeCast_self, shapeCast_self]
  show Ideal.div (v4 (ix2 p k)) (broadcastTo S5000x128 _ _ (ix2 p k)) = _
  rw [broadcastTo_a1_ab_apply]
  rfl

/-- First kernel: entry (p, q) of the stored block is the rectified dense stage of row `p` of the loaded blocks. -/
theorem pay0_at (v0 : Vec Ideal S5000x1 .f32) (v4 v9 : Vec Ideal S5000x128 .f32) (v11 v14 : Vec Ideal S128x128 .f32)
    (v20 : Vec Ideal S1x128 .f32) (p : Fin 5000) (q : Fin 128) :
    k0_pay1 (F := Ideal) v0 v4 v9 v11 v14 v20 (ix2 p q)
      = max (denseAt v4 (fun p => v0 (ix2 p (0 : Fin 1))) v9 v11 v14 (fun q => v20 (ix2 (0 : Fin 1) q)) p q) zero := by
  unfold k0_pay1
  -- pointwise: max((product₁ + product₂) + bias row, 0) at (p, q)
  show max ((FloatOps.matmul _ none _ _ _ (ix2 p q) + FloatOps.matmul _ none _ _ _ (ix2 p q))
      + broadcastTo S5000x128 _ _ (ix2 p q)) zero = _
  rw [mm_at, mm_at, broadcastTo_1b_ab_apply]
  unfold denseAt
  -- summand by summand: rounding to bf16 is the identity on extended reals, and every cast is of a shape to itself
  refine congrArg (fun t => max t zero) (congrArg₂ (· + ·) (congrArg₂ (· + ·)
    (Finset.sum_congr rfl fun k _ => ?_) (Finset.sum_congr rfl fun k _ => ?_)) ?_)
  · exact congrArg₂ (· * ·) (mean_at v0 v4 p k) (congrFun (shapeCast_self v11 _) (ix2 k q))
  · exact congrArg (v9 (ix2 p k) * ·) (congrFun (shapeCast_self v14 _) (ix2 k q))
  · exact congrFun (shapeCast_self v20 _) (ix2 (0 : Fin 1) q)

/-- Second kernel: the same without the rectifier. -/
theorem pay1_at (v0 : Vec Ideal S5000x1 .f32) (v4 v9 : Vec Ideal S5000x128 .f32) (v12 v15 : Vec Ideal S128x128 .f32)
    (v21 : Vec Ideal S1x128 .f32) (p : Fin 5000) (q : Fin 128) :
    k1_pay1 (F := Ideal) v0 v4 v9 v12 v15 v21 (ix2 p q)
      = denseAt v4 (fun p => v0 (ix2 p (0 : Fin 1))) v9 v12 v15 (fun q => v21 (ix2 (0 : Fin 1) q)) p q := by
  unfold k1_pay1
  -- pointwise: (product₁ + product₂) + bias row at (p, q)
  show (FloatOps.matmul _ none _ _ _ (ix2 p q) + FloatOps.matmul _ none _ _ _ (ix2 p q))
      + broadcastTo S5000x128 _ _ (ix2 p q) = _
  rw [mm_at, mm_at, broadcastTo_1b_ab_apply]
  unfold denseAt
  refine congrArg₂ (· + ·) (congrArg₂ (· + ·)
    (Finset.sum_congr rfl fun k _ => ?_) (Finset.sum_congr rfl fun k _ => ?_)) ?_
  · exact congrArg₂ (· * ·) (mean_at v0 v4 p k) (congrFun (shapeCast_self v12 _) (ix2 k q))
  · exact congrArg₂ (· * ·) (congrFun (shapeCast_self v9 _) (ix2 p k)) (congrFun (shapeCast_self v15 _) (ix2 k q))
  · exact congrFun (shapeCast_self v21 _) (ix2 (0 : Fin 1) q)

end Cert.KernelIdeal.BlockValue

end
-- ==== Proof.KCommon.lean ====
/-
  Two facts both regions' block-to-array steps use: a zero offset vector, and that an entry of the dense stage only
  reads one row of the row-indexed operands, one column of the weights and one bias entry.
-/
import proofs.«152677_j5428838662375_1_alg».proof.Proof.Spec

noncomputable section

namespace Cert.KernelIdeal.BlockValue

open Idealize.ShloMosaic Idealize.ShloMosaic.ValueIdx Cert.SageLayer

theorem hz : (![0, 0] : Fin 2 → Nat) = fun _ => 0 := funext fun a => by fin_cases a <;> rfl

/-- The dense stage's entry when every operand is replaced by one that agrees with it where the entry reads: row `p`
    of the row-indexed operands, column `q` of the weights, the bias at `q`. -/
theorem denseAt_agree {N N' : Nat} {s : (⟨2, ![N, 128]⟩ : Shape).Idx → EReal} {s' : (⟨2, ![N', 128]⟩ : Shape).Idx → EReal}
    {d : Fin N → EReal} {d' : Fin N' → EReal}
    {x : (⟨2, ![N, 128]⟩ : Shape).Idx → EReal} {x' : (⟨2, ![N', 128]⟩ : Shape).Idx → EReal}
    {wl wr wl' wr' : (⟨2, ![128, 128]⟩ : Shape).Idx → EReal} {b b' : Fin 128 → EReal} {p : Fin N} {p' : Fin N'} (q : Fin 128)
    (hs : ∀ k : Fin 128, s (ix2 p k) = s' (ix2 p' k)) (hd : d p = d' p')
    (hx : ∀ k : Fin 128, x (ix2 p k) = x' (ix2 p' k))
    (hwl : ∀ k : Fin 128, wl (ix2 k q) = wl' (ix2 k q)) (hwr : ∀ k : Fin 128, wr (ix2 k q) = wr' (ix2 k q)) (hb : b q = b' q) :
    denseAt s d x wl wr b p q = denseAt s' d' x' wl' wr' b' p' q := by
  unfold denseAt
  rw [hd, hb]
  congr 2
  · exact Finset.sum_congr rfl fun k _ => by rw [hs k, hwl k]
  · exact Finset.sum_congr rfl fun k _ => by rw [hx k, hwr k]

end Cert.KernelIdeal.BlockValue

end
-- ==== Proof.KBlocks0.lean ====
/-
  From blocks to the array: what the first kernel region leaves in its result array, as one function of the arrays the
  region finds at its entry.

  The region walks the 100000 node rows in 20 blocks of 5000 rows. At block `t` the three row-indexed operands (the
  neighbour sums, the degree column, the node features) are read at rows `5000·t … 5000·t + 4999`; the two weight
  matrices and the bias row are read whole at every block. Entry (p, q) of the block the body stores is the dense stage
  of row `p` of the loaded blocks, that is of row `5000·t + p` of the arrays; the 20 written blocks tile the result
  array, so the array ends holding the layer's function at every index.
-/
import proofs.«152677_j5428838662375_1_alg».proof.Proof.Gen.KernelIdeal.Frame
import proofs.«152677_j5428838662375_1_alg».proof.Proof.KPayload
import proofs.«152677_j5428838662375_1_alg».proof.Proof.KCommon
import Idealize.ShloMosaic.Lib.Pipeline.Value

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.Pipeline (Dat)
open Idealize.ShloMosaic.ValueIdx Cert.SageLayer

variable (V : (c : Dev nD) → (b : Ref sig .tc) → Buf (Elt Ideal) ((c : Thread nD τ).loc b))

/-! ## The first region -/

/-- The printed index maps over the grid: the row-indexed windows (and the result's) are at block row `t`, column 0;
    the whole-array windows at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The neighbour-sum block at point `t` is rows `5000·t …` of its array. -/
theorem blk0_0 (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_v17 : S100000x128.Idx → EReal) k := by
  obtain ⟨e0, e1, -⟩ := idx_facts0 t
  unfold iblk0
  rw [View.read_apply]
  show V c main_v17 _ = V c main_v17 _
  congr 1
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- The degree-column block at point `t` is rows `5000·t …` of the degree column. -/
theorem blk0_1 (c : Dev nD) (t : Fin cfg0.N) (y : S5000x1.Idx) (k : S100000x1.Idx)
    (hk0 : (k 0).val = 5000 * t.val + (y 0).val) (hk1 : (k 1).val = (y 1).val) :
    (iblk0 V c 1 t : Vec Ideal S5000x1 .f32) y = (V c main_v21 : S100000x1.Idx → EReal) k := by
  obtain ⟨-, -, e0, e1, -⟩ := idx_facts0 t
  unfold iblk0
  rw [View.read_apply]
  show V c main_v21 _ = V c main_v21 _
  congr 1
  funext a
  apply Fin.ext
  match a with
  | ⟨0, _⟩ => show win0_1.index t 0 * 5000 + 1 * (y 0).val = (k 0).val; rw [e0, hk0]; omega
  | ⟨1, _⟩ => show win0_1.index t 1 * 1 + 1 * (y 1).val = (k 1).val; rw [e1, hk1]; omega

/-- The node-feature block at point `t` is rows `5000·t …` of the feature array. -/
theorem blk0_2 (c : Dev nD) (t : Fin cfg0.N) (y : S5000x128.Idx) (k : S100000x128.Idx)
    (hk0 : (k 0).val = 5000 * t.val + (y 0).val) (hk1 : (k 1).val = (y 1).val) :
    (iblk0 V c 2 t : Vec Ideal S5000x128 .f32) y = (V c main_arg0 : S100000x128.Idx → EReal) k := by
  obtain ⟨-, -, -, -, e0, e1, -⟩ := idx_facts0 t
  unfold iblk0
  rw [View.read_apply]
  show V c main_arg0 _ = V c main_arg0 _
  congr 1
  funext a
  apply Fin.ext
  match a with
  | ⟨0, _⟩ => show win0_2.index t 0 * 5000 + 1 * (y 0).val = (k 0).val; rw [e0, hk0]; omega
  | ⟨1, _⟩ => show win0_2.index t 1 * 128 + 1 * (y 1).val = (k 1).val; rw [e1, hk1]; omega

/-- The two weight blocks and the bias block are their whole arrays at every point. -/
theorem blk0_3 (c : Dev nD) (t : Fin cfg0.N) (y : S128x128.Idx) :
    (iblk0 V c 3 t : Vec Ideal S128x128 .f32) y = (V c main_v18 : S128x128.Idx → EReal) y := by
  obtain ⟨-, -, -, -, -, -, e0, e1, -⟩ := idx_facts0 t
  unfold iblk0
  rw [View.read_apply]
  show V c main_v18 _ = V c main_v18 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

theorem blk0_4 (c : Dev nD) (t : Fin cfg0.N) (y : S128x128.Idx) :
    (iblk0 V c 4 t : Vec Ideal S128x128 .f32) y = (V c main_v19 : S128x128.Idx → EReal) y := by
  obtain ⟨-, -, -, -, -, -, -, -, e0, e1, -⟩ := idx_facts0 t
  unfold iblk0
  rw [View.read_apply]
  show V c main_v19 _ = V c main_v19 _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

theorem blk0_5 (c : Dev nD) (t : Fin cfg0.N) (y : S1x128.Idx) :
    (iblk0 V c 5 t : Vec Ideal S1x128 .f32) y = (V c main_v20 : S1x128.Idx → EReal) y := by
  obtain ⟨-, -, -, -, -, -, -, -, -, -, e0, e1, -⟩ := idx_facts0 t
  unfold iblk0
  rw [View.read_apply]
  show V c main_v20 _ = V c main_v20 _
  congr 1
  funext a
  apply Fin.ext
  match a with
  | ⟨0, _⟩ => show win0_5.index t 0 * 1 + 1 * (y 0).val = (y 0).val; rw [e0]; omega
  | ⟨1, _⟩ => show win0_5.index t 1 * 128 + 1 * (y 1).val = (y 1).val; rw [e1]; omega

/-- What the first region's result array ends holding: the layer's function of the arrays the region is entered with
    (the degree as the column it is staged in, the bias as the row). -/
abbrev arr0 (c : Dev nD) : S100000x128.Idx → EReal :=
  layer1 (V c main_v17) (fun p => (V c main_v21 : S100000x1.Idx → EReal) (ix2 p (0 : Fin 1))) (V c main_arg0) (V c main_v18) (V c main_v19)
    (fun q => (V c main_v20 : S1x128.Idx → EReal) (ix2 (0 : Fin 1) q))

/-- Entry (p, q) of the block stored at point `t` is the layer's function at row `5000·t + p`, column `q`. -/
theorem entry0 (c : Dev nD) (t : Fin cfg0.N) (p : Fin 5000) (q : Fin 128) (P : Fin 100000) (hP : P.val = 5000 * t.val + p.val) :
    k0_pay1 (F := Ideal) (iblk0 V c 1 t) (iblk0 V c 0 t) (iblk0 V c 2 t) (iblk0 V c 3 t) (iblk0 V c 4 t) (iblk0 V c 5 t) (ix2 p q)
      = arr0 V c (ix2 P q) := by
  refine (pay0_at _ _ _ _ _ _ p q).trans ?_
  show _ = max (denseAt (V c main_v17) (fun p => (V c main_v21 : S100000x1.Idx → EReal) (ix2 p (0 : Fin 1))) (V c main_arg0) (V c main_v18) (V c main_v19) (fun q => (V c main_v20 : S1x128.Idx → EReal) (ix2 (0 : Fin 1) q)) P q) zero
  refine congrArg (max · zero) ?_
  exact denseAt_agree q (fun k => blk0_0 V c t (ix2 p k) (ix2 P k) hP rfl) (blk0_1 V c t (ix2 p (0 : Fin 1)) (ix2 P (0 : Fin 1)) hP rfl)
    (fun k => blk0_2 V c t (ix2 p k) (ix2 P k) hP rfl) (fun k => blk0_3 V c t (ix2 k q)) (fun k => blk0_4 V c t (ix2 k q))
    (blk0_5 V c t (ix2 (0 : Fin 1) q))

/-- What point `t` writes back is block `t` of that function. -/
theorem flushed0 (c : Dev nD) (t : Fin cfg0.N) :
    (dat0 V c).flushed 6 t = ((cfg0.win 6).blk t).view.read (Elt Ideal) (arr0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  obtain ⟨-, -, -, -, -, -, -, -, -, -, -, -, e0, e1⟩ := idx_facts0 t
  have ht : t.val < 20 := by have h := t.isLt; have hN : cfg0.N = 20 := N_0; omega
  funext j
  obtain ⟨p, q, rfl⟩ : ∃ (p : Fin 5000) (q : Fin 128), j = ix2 p q := ⟨j 0, j 1, eq_ix2 j⟩
  have hE : ((cfg0.win 6).blk t).view.emb (ix2 p q) = ix2 (⟨5000 * t.val + p.val, by have := p.isLt; omega⟩ : Fin 100000) q := by
    funext a
    apply Fin.ext
    match a with
    | ⟨0, _⟩ => show win0_6.index t 0 * 5000 + 1 * p.val = 5000 * t.val + p.val; rw [e0]; omega
    | ⟨1, _⟩ => show win0_6.index t 1 * 128 + 1 * q.val = q.val; rw [e1]; omega
  show k0_pay1 (F := Ideal) (iblk0 V c 1 t) (iblk0 V c 0 t) (iblk0 V c 2 t) (iblk0 V c 3 t) (iblk0 V c 4 t) (iblk0 V c 5 t) (ix2 p q)
    = arr0 V c (((cfg0.win 6).blk t).view.emb (ix2 p q))
  rw [hE]
  exact entry0 V c t p q _ rfl

/-- An index of the result array is in point `t`'s block iff each coordinate is in the block's range. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v22).slice (win0_6.rect t)).set ↔ _
  rw [View.set_slice_whole, Rect.mem_set_unit]
  exact Iff.rfl

/-- The 20 written blocks cover the result array (row `r` is in block `r / 5000`), so it ends holding that function. -/
theorem final0 (c : Dev nD) : (dat0 V c).arrAt 6 cfg0.N = arr0 V c :=
  (dat0 V c).arrAt_eq_of_cover 6 (arr0 V c) (fun t _ => flushed0 V c t) fun i => by
    have h0 : ((i : S100000x128.Idx) 0).val < 100000 := (i 0).isLt
    have h1 : ((i : S100000x128.Idx) 1).val < 128 := (i 1).isLt
    have hT : ((i : S100000x128.Idx) 0).val / 5000 < cfg0.N := by rw [show cfg0.N = 20 from N_0]; omega
    refine ⟨⟨((i : S100000x128.Idx) 0).val / 5000, hT⟩, flush0_6 _, ?_⟩
    obtain ⟨-, -, -, -, -, -, -, -, -, -, -, -, e0, e1⟩ := idx_facts0 ⟨((i : S100000x128.Idx) 0).val / 5000, hT⟩
    have e0' : win0_6.index ⟨((i : S100000x128.Idx) 0).val / 5000, hT⟩ 0 = ((i : S100000x128.Idx) 0).val / 5000 := e0
    rw [mem_blk0]
    intro a
    match a with
    | ⟨0, _⟩ =>
      show win0_6.index _ 0 * 5000 ≤ ((i : S100000x128.Idx) 0).val ∧ ((i : S100000x128.Idx) 0).val < win0_6.index _ 0 * 5000 + 5000
      rw [e0']; omega
    | ⟨1, _⟩ =>
      show win0_6.index _ 1 * 128 ≤ ((i : S100000x128.Idx) 1).val ∧ ((i : S100000x128.Idx) 1).val < win0_6.index _ 1 * 128 + 128
      rw [e1]; omega

end Cert.KernelIdeal.BlockValue

end
-- ==== Proof.KBlocks1.lean ====
/-
  From blocks to the array: what the second kernel region leaves in its result array, as one function of the arrays the
  region finds at its entry.

  The region walks the 100000 node rows in 20 blocks of 5000 rows. At block `t` the three row-indexed operands (the
  neighbour sums, the degree column, the node features) are read at rows `5000·t … 5000·t + 4999`; the two weight
  matrices and the bias row are read whole at every block. Entry (p, q) of the block the body stores is the dense stage
  of row `p` of the loaded blocks, that is of row `5000·t + p` of the arrays; the 20 written blocks tile the result
  array, so the array ends holding the layer's function at every index.
-/
import proofs.«152677_j5428838662375_1_alg».proof.Proof.Gen.KernelIdeal.Frame
import proofs.«152677_j5428838662375_1_alg».proof.Proof.KPayload
import proofs.«152677_j5428838662375_1_alg».proof.Proof.KCommon
import Idealize.ShloMosaic.Lib.Pipeline.Value

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.Pipeline (Dat)
open Idealize.ShloMosaic.ValueIdx Cert.SageLayer

variable (V : (c : Dev nD) → (b : Ref sig .tc) → Buf (Elt Ideal) ((c : Thread nD τ).loc b))

/-! ## The second region -/

/-- The printed index maps over the grid: the row-indexed windows (and the result's) are at block row `t`, column 0;
    the whole-array windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The neighbour-sum block at point `t` is rows `5000·t …` of its array. -/
theorem blk1_0 (c : Dev nD) (t : Fin cfg1.N) (y : S5000x128.Idx) (k : S100000x128.Idx)
    (hk0 : (k 0).val = 5000 * t.val + (y 0).val) (hk1 : (k 1).val = (y 1).val) :
    (iblk1 V c 0 t : Vec Ideal S5000x128 .f32) y = (V c main_v32 : S100000x128.Idx → EReal) k := by
  obtain ⟨e0, e1, -⟩ := idx_facts1 t
  unfold iblk1
  rw [View.read_apply]
  show V c main_v32 _ = V c main_v32 _
  congr 1
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- The degree-column block at point `t` is rows `5000·t …` of the degree column. -/
theorem blk1_1 (c : Dev nD) (t : Fin cfg1.N) (y : S5000x1.Idx) (k : S100000x1.Idx)
    (hk0 : (k 0).val = 5000 * t.val + (y 0).val) (hk1 : (k 1).val = (y 1).val) :
    (iblk1 V c 1 t : Vec Ideal S5000x1 .f32) y = (V c main_v36 : S100000x1.Idx → EReal) k := by
  obtain ⟨-, -, e0, e1, -⟩ := idx_facts1 t
  unfold iblk1
  rw [View.read_apply]
  show V c main_v36 _ = V c main_v36 _
  congr 1
  funext a
  apply Fin.ext
  match a with
  | ⟨0, _⟩ => show win1_1.index t 0 * 5000 + 1 * (y 0).val = (k 0).val; rw [e0, hk0]; omega
  | ⟨1, _⟩ => show win1_1.index t 1 * 1 + 1 * (y 1).val = (k 1).val; rw [e1, hk1]; omega

/-- The node-feature block at point `t` is rows `5000·t …` of the feature array. -/
theorem blk1_2 (c : Dev nD) (t : Fin cfg1.N) (y : S5000x128.Idx) (k : S100000x128.Idx)
    (hk0 : (k 0).val = 5000 * t.val + (y 0).val) (hk1 : (k 1).val = (y 1).val) :
    (iblk1 V c 2 t : Vec Ideal S5000x128 .f32) y = (V c main_v22 : S100000x128.Idx → EReal) k := by
  obtain ⟨-, -, -, -, e0, e1, -⟩ := idx_facts1 t
  unfold iblk1
  rw [View.read_apply]
  show V c main_v22 _ = V c main_v22 _
  congr 1
  funext a
  apply Fin.ext
  match a with
  | ⟨0, _⟩ => show win1_2.index t 0 * 5000 + 1 * (y 0).val = (k 0).val; rw [e0, hk0]; omega
  | ⟨1, _⟩ => show win1_2.index t 1 * 128 + 1 * (y 1).val = (k 1).val; rw [e1, hk1]; omega

/-- The two weight blocks and the bias block are their whole arrays at every point. -/
theorem blk1_3 (c : Dev nD) (t : Fin cfg1.N) (y : S128x128.Idx) :
    (iblk1 V c 3 t : Vec Ideal S128x128 .f32) y = (V c main_v33 : S128x128.Idx → EReal) y := by
  obtain ⟨-, -, -, -, -, -, e0, e1, -⟩ := idx_facts1 t
  unfold iblk1
  rw [View.read_apply]
  show V c main_v33 _ = V c main_v33 _
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

theorem blk1_4 (c : Dev nD) (t : Fin cfg1.N) (y : S128x128.Idx) :
    (iblk1 V c 4 t : Vec Ideal S128x128 .f32) y = (V c main_v34 : S128x128.Idx → EReal) y := by
  obtain ⟨-, -, -, -, -, -, -, -, e0, e1, -⟩ := idx_facts1 t
  unfold iblk1
  rw [View.read_apply]
  show V c main_v34 _ = V c main_v34 _
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

theorem blk1_5 (c : Dev nD) (t : Fin cfg1.N) (y : S1x128.Idx) :
    (iblk1 V c 5 t : Vec Ideal S1x128 .f32) y = (V c main_v35 : S1x128.Idx → EReal) y := by
  obtain ⟨-, -, -, -, -, -, -, -, -, -, e0, e1, -⟩ := idx_facts1 t
  unfold iblk1
  rw [View.read_apply]
  show V c main_v35 _ = V c main_v35 _
  congr 1
  funext a
  apply Fin.ext
  match a with
  | ⟨0, _⟩ => show win1_5.index t 0 * 1 + 1 * (y 0).val = (y 0).val; rw [e0]; omega
  | ⟨1, _⟩ => show win1_5.index t 1 * 128 + 1 * (y 1).val = (y 1).val; rw [e1]; omega

/-- What the second region's result array ends holding: the layer's function of the arrays the region is entered with
    (the degree as the column it is staged in, the bias as the row). -/
abbrev arr1 (c : Dev nD) : S100000x128.Idx → EReal :=
  layer2 (V c main_v32) (fun p => (V c main_v36 : S100000x1.Idx → EReal) (ix2 p (0 : Fin 1))) (V c main_v22) (V c main_v33) (V c main_v34)
    (fun q => (V c main_v35 : S1x128.Idx → EReal) (ix2 (0 : Fin 1) q))

/-- Entry (p, q) of the block stored at point `t` is the layer's function at row `5000·t + p`, column `q`. -/
theorem entry1 (c : Dev nD) (t : Fin cfg1.N) (p : Fin 5000) (q : Fin 128) (P : Fin 100000) (hP : P.val = 5000 * t.val + p.val) :
    k1_pay1 (F := Ideal) (iblk1 V c 1 t) (iblk1 V c 0 t) (iblk1 V c 2 t) (iblk1 V c 3 t) (iblk1 V c 4 t) (iblk1 V c 5 t) (ix2 p q)
      = arr1 V c (ix2 P q) := by
  refine (pay1_at _ _ _ _ _ _ p q).trans ?_
  show _ = denseAt (V c main_v32) (fun p => (V c main_v36 : S100000x1.Idx → EReal) (ix2 p (0 : Fin 1))) (V c main_v22) (V c main_v33) (V c main_v34) (fun q => (V c main_v35 : S1x128.Idx → EReal) (ix2 (0 : Fin 1) q)) P q
  exact denseAt_agree q (fun k => blk1_0 V c t (ix2 p k) (ix2 P k) hP rfl) (blk1_1 V c t (ix2 p (0 : Fin 1)) (ix2 P (0 : Fin 1)) hP rfl)
    (fun k => blk1_2 V c t (ix2 p k) (ix2 P k) hP rfl) (fun k => blk1_3 V c t (ix2 k q)) (fun k => blk1_4 V c t (ix2 k q))
    (blk1_5 V c t (ix2 (0 : Fin 1) q))

/-- What point `t` writes back is block `t` of that function. -/
theorem flushed1 (c : Dev nD) (t : Fin cfg1.N) :
    (dat1 V c).flushed 6 t = ((cfg1.win 6).blk t).view.read (Elt Ideal) (arr1 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  obtain ⟨-, -, -, -, -, -, -, -, -, -, -, -, e0, e1⟩ := idx_facts1 t
  have ht : t.val < 20 := by have h := t.isLt; have hN : cfg1.N = 20 := N_1; omega
  funext j
  obtain ⟨p, q, rfl⟩ : ∃ (p : Fin 5000) (q : Fin 128), j = ix2 p q := ⟨j 0, j 1, eq_ix2 j⟩
  have hE : ((cfg1.win 6).blk t).view.emb (ix2 p q) = ix2 (⟨5000 * t.val + p.val, by have := p.isLt; omega⟩ : Fin 100000) q := by
    funext a
    apply Fin.ext
    match a with
    | ⟨0, _⟩ => show win1_6.index t 0 * 5000 + 1 * p.val = 5000 * t.val + p.val; rw [e0]; omega
    | ⟨1, _⟩ => show win1_6.index t 1 * 128 + 1 * q.val = q.val; rw [e1]; omega
  show k1_pay1 (F := Ideal) (iblk1 V c 1 t) (iblk1 V c 0 t) (iblk1 V c 2 t) (iblk1 V c 3 t) (iblk1 V c 4 t) (iblk1 V c 5 t) (ix2 p q)
    = arr1 V c (((cfg1.win 6).blk t).view.emb (ix2 p q))
  rw [hE]
  exact entry1 V c t p q _ rfl

/-- An index of the result array is in point `t`'s block iff each coordinate is in the block's range. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v37).slice (win1_6.rect t)).set ↔ _
  rw [View.set_slice_whole, Rect.mem_set_unit]
  exact Iff.rfl

/-- The 20 written blocks cover the result array (row `r` is in block `r / 5000`), so it ends holding that function. -/
theorem final1 (c : Dev nD) : (dat1 V c).arrAt 6 cfg1.N = arr1 V c :=
  (dat1 V c).arrAt_eq_of_cover 6 (arr1 V c) (fun t _ => flushed1 V c t) fun i => by
    have h0 : ((i : S100000x128.Idx) 0).val < 100000 := (i 0).isLt
    have h1 : ((i : S100000x128.Idx) 1).val < 128 := (i 1).isLt
    have hT : ((i : S100000x128.Idx) 0).val / 5000 < cfg1.N := by rw [show cfg1.N = 20 from N_1]; omega
    refine ⟨⟨((i : S100000x128.Idx) 0).val / 5000, hT⟩, flush1_6 _, ?_⟩
    obtain ⟨-, -, -, -, -, -, -, -, -, -, -, -, e0, e1⟩ := idx_facts1 ⟨((i : S100000x128.Idx) 0).val / 5000, hT⟩
    have e0' : win1_6.index ⟨((i : S100000x128.Idx) 0).val / 5000, hT⟩ 0 = ((i : S100000x128.Idx) 0).val / 5000 := e0
    rw [mem_blk1]
    intro a
    match a with
    | ⟨0, _⟩ =>
      show win1_6.index _ 0 * 5000 ≤ ((i : S100000x128.Idx) 0).val ∧ ((i : S100000x128.Idx) 0).val < win1_6.index _ 0 * 5000 + 5000
      rw [e0']; omega
    | ⟨1, _⟩ =>
      show win1_6.index _ 1 * 128 ≤ ((i : S100000x128.Idx) 1).val ∧ ((i : S100000x128.Idx) 1).val < win1_6.index _ 1 * 128 + 128
      rw [e1]; omega

end Cert.KernelIdeal.BlockValue

end
-- ==== Proof.KHost.lean ====
/-
  What the host operations around the two kernel regions compute: the arrays each region is entered with, as terms
  of the launch memory (and, for the second region, of the first region's result).

  Before the first region the host gathers each edge's source row of the node features and scatter-adds it to the
  edge's destination row (the neighbour sums), counts the in-degrees the same way, transposes the two weight matrices
  and lays the bias out as a row and the degrees as a column. Between the regions it does the same with the first
  region's result in the features' place. The gather and the scatter-add stay opaque: they are the same terms the
  reference applies.
-/
import proofs.«152677_j5428838662375_1_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The edges' source nodes (row 0 of the edge list) and destination nodes (row 1), as flat integer arrays. -/
def srcFlat : Vec Ideal S1600000 .i32 :=
  shapeCast _ (extractStridedSlice S1x1600000 ![0, 0] (m ((c.tc : Thread nD τ).loc main_arg7)) slices_S2x1600000_S1x1600000_0_0) shapeCasts_S1x1600000_S1600000
def dstFlat : Vec Ideal S1600000 .i32 :=
  shapeCast _ (extractStridedSlice S1x1600000 ![1, 0] (m ((c.tc : Thread nD τ).loc main_arg7)) slices_S2x1600000_S1x1600000_1_0) shapeCasts_S1x1600000_S1600000

/-- The destination nodes, one per row. -/
def dstCol : Vec Ideal S1600000x1 .i32 :=
  broadcastInDim S1600000x1 ![0] bcast_S1600000_S1600000x1_0 (dstFlat m c)

/-- The source nodes, a negative number counted from the end, one per row. -/
def srcCol : Vec Ideal S1600000x1 .i32 :=
  broadcastInDim S1600000x1 ![0] bcast_S1600000_S1600000x1_0 (select (cmpi .slt (srcFlat m c) (broadcastInDim S1600000 ![] bcast_S_S1600000 (constantI S_ 32 0#32))) (addi (srcFlat m c) (broadcastInDim S1600000 ![] bcast_S_S1600000 (constantI S_ 32 100000#32))) (srcFlat m c))

/-- Neighbour sums of node features `f`: each edge's source row added into its destination row. -/
def agg (f : Vec Ideal S100000x128 .f32) : Vec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (dstCol m c) (Host.gather gather_S100000x128_S1600000x1_S1600000x128_1_0_n_n_0_1_1128 f (srcCol m c))

/-- In-degrees: one added at each edge's destination. -/
def degArr : Vec Ideal S100000 .f32 :=
  Host.scatterAdd (F := Ideal) scatter_S100000_S1600000x1_S1600000_n_0_0_1 (broadcastInDim S100000 ![] bcast_S_S100000 (constant (F := Ideal) S_ .f32 0x00000000#32)) (dstCol m c) (broadcastInDim S1600000 ![] bcast_S_S1600000 (constant (F := Ideal) S_ .f32 0x3F800000#32))

/-! ## The first region's entry -/

theorem V1_v17 : V1 m ρ c main_v17 = agg m c (m ((c.tc : Thread nD τ).loc main_arg0)) := by
  show StableHlo.after hostOps0 (W0 m ρ c) (Proc.devRef .tc main_v17) = _
  after_results_simp <;> rfl

theorem V1_v21 : V1 m ρ c main_v21 = shapeCast S100000x1 (degArr m c) shapeCasts_S100000_S100000x1 := by
  show StableHlo.after hostOps0 (W0 m ρ c) (Proc.devRef .tc main_v21) = _
  after_results_simp <;> rfl

theorem V1_arg0 : V1 m ρ c main_arg0 = m ((c.tc : Thread nD τ).loc main_arg0) := by
  show StableHlo.after hostOps0 (W0 m ρ c) (Proc.devRef .tc main_arg0) = _
  after_results_simp <;> rfl

theorem V1_v18 : V1 m ρ c main_v18 = transpose S128x128 [1, 0] (m ((c.tc : Thread nD τ).loc main_arg1)) transposes_S128x128_S128x128_1_0 := by
  show StableHlo.after hostOps0 (W0 m ρ c) (Proc.devRef .tc main_v18) = _
  after_results_simp <;> rfl

theorem V1_v19 : V1 m ρ c main_v19 = transpose S128x128 [1, 0] (m ((c.tc : Thread nD τ).loc main_arg3)) transposes_S128x128_S128x128_1_0 := by
  show StableHlo.after hostOps0 (W0 m ρ c) (Proc.devRef .tc main_v19) = _
  after_results_simp <;> rfl

theorem V1_v20 : V1 m ρ c main_v20 = shapeCast S1x128 (m ((c.tc : Thread nD τ).loc main_arg2)) shapeCasts_S128_S1x128 := by
  show StableHlo.after hostOps0 (W0 m ρ c) (Proc.devRef .tc main_v20) = _
  after_results_simp <;> rfl

/-! ## Between the regions

The first region writes its result array only; every other buffer the second stretch of host operations reads (the
edge list's two rows, the degrees, the second layer's weights and bias) is as the first stretch left it. -/

theorem W2_v1 : W2 m ρ c (Proc.devRef .tc main_v1) = srcFlat m c :=
  (W2_of_ne m ρ c main_v1 (by decide)).trans (by
    show StableHlo.after hostOps0 (W0 m ρ c) (Proc.devRef .tc main_v1) = _
    after_results_simp <;> rfl)

theorem W2_v3 : W2 m ρ c (Proc.devRef .tc main_v3) = dstFlat m c :=
  (W2_of_ne m ρ c main_v3 (by decide)).trans (by
    show StableHlo.after hostOps0 (W0 m ρ c) (Proc.devRef .tc main_v3) = _
    after_results_simp <;> rfl)

theorem W2_v7 : W2 m ρ c (Proc.devRef .tc main_v7) = degArr m c :=
  (W2_of_ne m ρ c main_v7 (by decide)).trans (by
    show StableHlo.after hostOps0 (W0 m ρ c) (Proc.devRef .tc main_v7) = _
    after_results_simp <;> rfl)

theorem W2_arg4 : W2 m ρ c (Proc.devRef .tc main_arg4) = m ((c.tc : Thread nD τ).loc main_arg4) :=
  (W2_of_ne m ρ c main_arg4 (by decide)).trans (by
    show StableHlo.after hostOps0 (W0 m ρ c) (Proc.devRef .tc main_arg4) = _
    after_results_simp <;> rfl)

theorem W2_arg5 : W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    after_results_simp <;> rfl)

theorem W2_arg6 : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results_simp <;> rfl)

/-- The first region's result array after the region: what its write-backs leave. -/
theorem V2_v22 : V2 m ρ c main_v22 = (dat0 (V1 m ρ) c).arrAt 6 cfg0.N := W2_arr m ρ c 6

/-! ## The second region's entry -/

theorem V3_v32 : V3 m ρ c main_v32 = agg m c (V2 m ρ c main_v22) := by
  show StableHlo.after hostOps1 (W2 m ρ c) (Proc.devRef .tc main_v32) = _
  after_results_simp
  rw [W2_v1, W2_v3]
  rfl

theorem V3_v36 : V3 m ρ c main_v36 = shapeCast S100000x1 (degArr m c) shapeCasts_S100000_S100000x1 := by
  show StableHlo.after hostOps1 (W2 m ρ c) (Proc.devRef .tc main_v36) = _
  after_results_simp
  rw [W2_v7]
  rfl

theorem V3_v22 : V3 m ρ c main_v22 = V2 m ρ c main_v22 := by
  show StableHlo.after hostOps1 (W2 m ρ c) (Proc.devRef .tc main_v22) = _
  after_results_simp <;> rfl

theorem V3_v33 : V3 m ρ c main_v33 = transpose S128x128 [1, 0] (m ((c.tc : Thread nD τ).loc main_arg4)) transposes_S128x128_S128x128_1_0 := by
  show StableHlo.after hostOps1 (W2 m ρ c) (Proc.devRef .tc main_v33) = _
  after_results_simp
  rw [W2_arg4]

theorem V3_v34 : V3 m ρ c main_v34 = transpose S128x128 [1, 0] (m ((c.tc : Thread nD τ).loc main_arg6)) transposes_S128x128_S128x128_1_0 := by
  show StableHlo.after hostOps1 (W2 m ρ c) (Proc.devRef .tc main_v34) = _
  after_results_simp
  rw [W2_arg6]

theorem V3_v35 : V3 m ρ c main_v35 = shapeCast S1x128 (m ((c.tc : Thread nD τ).loc main_arg5)) shapeCasts_S128_S1x128 := by
  show StableHlo.after hostOps1 (W2 m ρ c) (Proc.devRef .tc main_v35) = _
  after_results_simp
  rw [W2_arg5]
  rfl

/-- The program's result array after the second region: what its write-backs leave. -/
theorem W4_v37 : W4 m ρ c (Proc.devRef .tc main_v37) = (dat1 (V3 m ρ) c).arrAt 6 cfg1.N := W4_arr m ρ c 6

end Cert.KernelIdeal.HostValue

end
-- ==== Proof.KValue.lean ====
/-
  The idealized kernel program's result, as the two graph layers of `Spec.lean`.

  The second region's result array is the second layer's function of what the host hands it: the neighbour sums of the
  first region's result, the degree column, that result itself, the second pair of transposed weights and the second
  bias row. The first region's result is the first layer's function of the neighbour sums of the node features, the
  same degree column, the features, the first pair of weights and the first bias row. A degree column `[n, 1]` read at
  (p, 0) is the degree at `p`; a bias row `[1, 128]` read at (0, q) is the bias at `q`.
-/
import proofs.«152677_j5428838662375_1_alg».proof.Proof.KRun
import proofs.«152677_j5428838662375_1_alg».proof.Proof.KBlocks0
import proofs.«152677_j5428838662375_1_alg».proof.Proof.KBlocks1
import proofs.«152677_j5428838662375_1_alg».proof.Proof.KHost
import Idealize.ShloMosaic.Lib.ValueLayout

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.ValueIdx Cert.SageLayer Cert.KernelIdeal.BlockValue

variable (m : (ℓ : Loc nD τ sig) → Buf (Elt Ideal) ℓ) (ρ : Dev nD → PrngReg) (c : Dev nD)

/-- An `[a]` array cast to a column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The degree column read at (p, 0) is the in-degree of node `p`. -/
theorem deg_col : (fun p : Fin 100000 => (shapeCast S100000x1 (degArr m c) shapeCasts_S100000_S100000x1 : S100000x1.Idx → EReal) (ix2 p (0 : Fin 1)))
    = fun p : Fin 100000 => degArr m c (ix1 p) :=
  funext fun p => shapeCast_a_a1_apply (degArr m c) shapeCasts_S100000_S100000x1 p 0

/-- A bias row read at (0, q) is the bias at `q`. -/
theorem bias_row (b : Vec Ideal S128 .f32) : (fun q : Fin 128 => (shapeCast S1x128 b shapeCasts_S128_S1x128 : S1x128.Idx → EReal) (ix2 (0 : Fin 1) q))
    = fun q : Fin 128 => b (ix1 q) :=
  funext fun q => shapeCast_a_1a_apply b shapeCasts_S128_S1x128 0 q

/-- The first layer's output over the launch memory. -/
def hidden : S100000x128.Idx → EReal :=
  layer1 (agg m c (m ((c.tc : Thread nD τ).loc main_arg0))) (fun p => degArr m c (ix1 p)) (m ((c.tc : Thread nD τ).loc main_arg0))
    (transpose S128x128 [1, 0] (m ((c.tc : Thread nD τ).loc main_arg1)) transposes_S128x128_S128x128_1_0)
    (transpose S128x128 [1, 0] (m ((c.tc : Thread nD τ).loc main_arg3)) transposes_S128x128_S128x128_1_0)
    (fun q => m ((c.tc : Thread nD τ).loc main_arg2) (ix1 q))

/-- The first region leaves the first layer's output in its result array. -/
theorem region0_value : V2 m ρ c main_v22 = hidden m c := by
  rw [V2_v22, final0]
  show layer1 (V1 m ρ c main_v17) (fun p => (V1 m ρ c main_v21 : S100000x1.Idx → EReal) (ix2 p (0 : Fin 1))) (V1 m ρ c main_arg0)
      (V1 m ρ c main_v18) (V1 m ρ c main_v19) (fun q => (V1 m ρ c main_v20 : S1x128.Idx → EReal) (ix2 (0 : Fin 1) q)) = _
  rw [V1_v17, V1_v21, V1_arg0, V1_v18, V1_v19, V1_v20, deg_col, bias_row]
  rfl

/-- The program's result array ends holding the two layers' function of the launch memory. -/
theorem kernel_value : W4 m ρ c (Proc.devRef .tc main_v37)
    = twoLayers (agg m c) (fun p => degArr m c (ix1 p)) (m ((c.tc : Thread nD τ).loc main_arg0))
        (transpose S128x128 [1, 0] (m ((c.tc : Thread nD τ).loc main_arg1)) transposes_S128x128_S128x128_1_0)
        (transpose S128x128 [1, 0] (m ((c.tc : Thread nD τ).loc main_arg3)) transposes_S128x128_S128x128_1_0)
        (fun q => m ((c.tc : Thread nD τ).loc main_arg2) (ix1 q))
        (transpose S128x128 [1, 0] (m ((c.tc : Thread nD τ).loc main_arg4)) transposes_S128x128_S128x128_1_0)
        (transpose S128x128 [1, 0] (m ((c.tc : Thread nD τ).loc main_arg6)) transposes_S128x128_S128x128_1_0)
        (fun q => m ((c.tc : Thread nD τ).loc main_arg5) (ix1 q)) := by
  rw [W4_v37, final1]
  show layer2 (V3 m ρ c main_v32) (fun p => (V3 m ρ c main_v36 : S100000x1.Idx → EReal) (ix2 p (0 : Fin 1))) (V3 m ρ c main_v22)
      (V3 m ρ c main_v33) (V3 m ρ c main_v34) (fun q => (V3 m ρ c main_v35 : S1x128.Idx → EReal) (ix2 (0 : Fin 1) q)) = _
  rw [V3_v32, V3_v36, V3_v22, V3_v33, V3_v34, V3_v35, region0_value, deg_col, bias_row]
  rfl

/-- The idealized kernel program's run with its result named: the two layers of the launch memory; the arguments unchanged. -/
theorem run : θ_run defs (onTc (τ := τ) (main (F := Ideal))) ⟨m, fun _ => 0, ρ⟩ (fun r => ∀ c : Dev nD,
      r.2.mem ((c.tc : Thread nD τ).loc main_v37)
        = twoLayers (agg m c) (fun p => degArr m c (ix1 p)) (m ((c.tc : Thread nD τ).loc main_arg0))
            (transpose S128x128 [1, 0] (m ((c.tc : Thread nD τ).loc main_arg1)) transposes_S128x128_S128x128_1_0)
            (transpose S128x128 [1, 0] (m ((c.tc : Thread nD τ).loc main_arg3)) transposes_S128x128_S128x128_1_0)
            (fun q => m ((c.tc : Thread nD τ).loc main_arg2) (ix1 q))
            (transpose S128x128 [1, 0] (m ((c.tc : Thread nD τ).loc main_arg4)) transposes_S128x128_S128x128_1_0)
            (transpose S128x128 [1, 0] (m ((c.tc : Thread nD τ).loc main_arg6)) transposes_S128x128_S128x128_1_0)
            (fun q => m ((c.tc : Thread nD τ).loc main_arg5) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (kernel_value m ρ c), (h c).2⟩)
    (Cert.KernelIdeal.ValueRun.run_result (F := Ideal) m ρ)

end Cert.KernelIdeal.HostValue

end
-- ==== Proof.RefSide.lean ====
/-
  The reference program's result as the two graph layers of `Spec.lean`.
-/
import proofs.«152677_j5428838662375_1_alg».proof.Proof.Gen.ReferenceIdeal.Run
import proofs.«152677_j5428838662375_1_alg».proof.Proof.Gen.ReferenceIdeal.Read
import proofs.«152677_j5428838662375_1_alg».proof.Proof.LibMatmulAt
import proofs.«152677_j5428838662375_1_alg».proof.Proof.Spec
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.SageLayer

variable (m : (ℓ : Loc nD τ sig) → Buf (Elt Ideal) ℓ) (c : Dev nD)

/-- The edges' destination nodes, one per row. -/
def dstCol : Vec Ideal S1600000x1 .i32 :=
  broadcastInDim S1600000x1 ![0] bcast_S1600000_S1600000x1_0 (shapeCast _ (extractStridedSlice S1x1600000 ![1, 0] (m ((c.tc : Thread nD τ).loc main_arg7)) slices_S2x1600000_S1x1600000_1_0) shapeCasts_S1x1600000_S1600000)

/-- The edges' source nodes, a negative number counted from the end, one per row. -/
def srcCol : Vec Ideal S1600000x1 .i32 :=
  broadcastInDim S1600000x1 ![0] bcast_S1600000_S1600000x1_0 (select (cmpi .slt (shapeCast _ (extractStridedSlice S1x1600000 ![0, 0] (m ((c.tc : Thread nD τ).loc main_arg7)) slices_S2x1600000_S1x1600000_0_0) shapeCasts_S1x1600000_S1600000) (broadcastInDim S1600000 ![] bcast_S_S1600000 (constantI S_ 32 0#32))) (addi (shapeCast _ (extractStridedSlice S1x1600000 ![0, 0] (m ((c.tc : Thread nD τ).loc main_arg7)) slices_S2x1600000_S1x1600000_0_0) shapeCasts_S1x1600000_S1600000) (broadcastInDim S1600000 ![] bcast_S_S1600000 (constantI S_ 32 100000#32))) (shapeCast _ (extractStridedSlice S1x1600000 ![0, 0] (m ((c.tc : Thread nD τ).loc main_arg7)) slices_S2x1600000_S1x1600000_0_0) shapeCasts_S1x1600000_S1600000))

/-- Neighbour sums of node features `f`: each edge's source row added into its destination row. -/
def agg (f : Vec Ideal S100000x128 .f32) : Vec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (dstCol m c) (Host.gather gather_S100000x128_S1600000x1_S1600000x128_1_0_n_n_0_1_1128 f (srcCol m c))

/-- In-degrees: one added at each edge's destination. -/
def degArr : Vec Ideal S100000 .f32 :=
  Host.scatterAdd (F := Ideal) scatter_S100000_S1600000x1_S1600000_n_0_0_1 (broadcastInDim S100000 ![] bcast_S_S100000 (constant (F := Ideal) S_ .f32 0x00000000#32)) (dstCol m c) (broadcastInDim S1600000 ![] bcast_S_S1600000 (constant (F := Ideal) S_ .f32 0x3F800000#32))

/-- Entry (p, q) of the host's product of a [100000 × 128] by a [128 × 128] array: the sum over the contracted axis of
    the left operand's row `p` against the right operand's column `q`. -/
theorem dot_at (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) := by
  simp only [Host.dotGeneral]
  rw [Ideal.dotGeneral_apply, ← Ideal.matmul_constant_zero_apply _ none]
  exact MatmulAt.matmul_zero_at dot_S100000x128_S128x128_S100000x128_1_0_0_1_n_n rfl rfl
    Read.lhs_main_v24_0 Read.lhs_main_v24_1 Read.rhs_main_v24_0 Read.rhs_main_v24_1 none l r p q

/-- The clamped degree, spread along a new unit axis and then along the features, read at (p, k): `max (d p) 1`. -/
theorem degB_at (d : FVec Ideal S100000 .f32) (p : Fin 100000) (k : Fin 128) :
    broadcastInDim S100000x128 ![0, 1] bcast_S100000x1_S100000x128_0_1 (broadcastInDim S100000x1 ![0] bcast_S100000_S100000x1_0 (maximumf d (broadcastInDim S100000 ![] bcast_S_S100000 (constant (F := Ideal) S_ .f32 0x3F800000#32)))) (ix2 p k)
      = max (d (ix1 p)) one := by
  rw [broadcastInDim_apply _ bcast_S100000x1_S100000x128_0_1 _ (ix2 p k) (ix2 p (0 : Fin 1)) (fun a => match a with
      | ⟨0, _⟩ => by show p.val = if (100000 : Nat) = 1 then 0 else p.val; rw [if_neg (by decide)]
      | ⟨1, _⟩ => by show 0 = if (1 : Nat) = 1 then 0 else k.val; rw [if_pos rfl]),
    broadcastInDim_apply _ bcast_S100000_S100000x1_0 _ (ix2 p (0 : Fin 1)) (ix1 p) (fun a => match a with
      | ⟨0, _⟩ => by show p.val = if (100000 : Nat) = 1 then 0 else p.val; rw [if_neg (by decide)]),
    maximumf_apply,
    broadcastInDim_apply _ bcast_S_S100000 _ (ix1 p) ix0 (fun a => a.elim0)]
  rfl

/-- The bias, spread along a new leading unit axis and then along the nodes, read at (p, q): `b q`. -/
theorem biasB_at (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  rw [broadcastInDim_apply _ bcast_S1x128_S100000x128_0_1 _ (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)]),
    broadcastInDim_apply _ bcast_S128_S1x128_1 _ (ix2 (0 : Fin 1) q) (ix1 q) (fun a => match a with
      | ⟨0, _⟩ => by show q.val = if (128 : Nat) = 1 then 0 else q.val; rw [if_neg (by decide)])]

/-- One dense stage as the reference writes it over whole arrays — neighbour sums divided by the clamped degree, times
    the left weight, plus the bias, plus the node's own features times the right weight — is the second layer's array. -/
theorem stage_eq (s x : FVec Ideal S100000x128 .f32) (d : FVec Ideal S100000 .f32) (wl wr : FVec Ideal S128x128 .f32)
    (b : FVec Ideal S128 .f32) :
    addf (addf (Host.dotGeneral (F := Ideal) dot_S100000x128_S128x128_S100000x128_1_0_0_1_n_n none (Host.divf s (broadcastInDim S100000x128 ![0, 1] bcast_S100000x1_S100000x128_0_1 (broadcastInDim S100000x1 ![0] bcast_S100000_S100000x1_0 (maximumf d (broadcastInDim S100000 ![] bcast_S_S100000 (constant (F := Ideal) S_ .f32 0x3F800000#32)))))) wl) (broadcastInDim S100000x128 ![0, 1] bcast_S1x128_S100000x128_0_1 (broadcastInDim S1x128 ![1] bcast_S128_S1x128_1 b))) (Host.dotGeneral (F := Ideal) dot_S100000x128_S128x128_S100000x128_1_0_0_1_n_n none x wr)
      = layer2 s (fun p => d (ix1 p)) x wl wr (fun q => b (ix1 q)) := by
  funext i
  obtain ⟨p, q, rfl⟩ : ∃ p q, i = ix2 p q := ⟨i 0, i 1, eq_ix2 i⟩
  rw [addf_apply, addf_apply, dot_at, dot_at, biasB_at]
  show _ = denseAt s (fun p => d (ix1 p)) x wl wr (fun q => b (ix1 q)) p q
  rw [← denseAt_bias_first]
  congr 2
  refine Finset.sum_congr rfl fun k _ => ?_
  show Ideal.div (s (ix2 p k)) _ * _ = _
  rw [degB_at]

/-- The same stage followed by the rectifier is the first layer's array. -/
theorem stage_relu_eq (s x : FVec Ideal S100000x128 .f32) (d : FVec Ideal S100000 .f32) (wl wr : FVec Ideal S128x128 .f32)
    (b : FVec Ideal S128 .f32) :
    maximumf (addf (addf (Host.dotGeneral (F := Ideal) dot_S100000x128_S128x128_S100000x128_1_0_0_1_n_n none (Host.divf s (broadcastInDim S100000x128 ![0, 1] bcast_S100000x1_S100000x128_0_1 (broadcastInDim S100000x1 ![0] bcast_S100000_S100000x1_0 (maximumf d (broadcastInDim S100000 ![] bcast_S_S100000 (constant (F := Ideal) S_ .f32 0x3F800000#32)))))) wl) (broadcastInDim S100000x128 ![0, 1] bcast_S1x128_S100000x128_0_1 (broadcastInDim S1x128 ![1] bcast_S128_S1x128_1 b))) (Host.dotGeneral (F := Ideal) dot_S100000x128_S128x128_S100000x128_1_0_0_1_n_n none x wr)) (broadcastInDim S100000x128 ![] bcast_S_S100000x128 (constant (F := Ideal) S_ .f32 0x00000000#32))
      = layer1 s (fun p => d (ix1 p)) x wl wr (fun q => b (ix1 q)) := by
  rw [stage_eq]
  funext i
  rw [maximumf_apply, broadcastInDim_apply _ bcast_S_S100000x128 _ i ix0 (fun a => a.elim0)]
  rfl

/-- The reference's result is the two layers over its own aggregation, degrees, transposed weights and biases. -/
theorem ref_value :
    Cert.ReferenceIdeal.Value.res_main_v58 (F := Ideal) m c
      = twoLayers (agg m c) (fun p => degArr m c (ix1 p)) (m ((c.tc : Thread nD τ).loc main_arg0))
          (transpose S128x128 [1, 0] (m ((c.tc : Thread nD τ).loc main_arg1)) transposes_S128x128_S128x128_1_0)
          (transpose S128x128 [1, 0] (m ((c.tc : Thread nD τ).loc main_arg3)) transposes_S128x128_S128x128_1_0)
          (fun q => m ((c.tc : Thread nD τ).loc main_arg2) (ix1 q))
          (transpose S128x128 [1, 0] (m ((c.tc : Thread nD τ).loc main_arg4)) transposes_S128x128_S128x128_1_0)
          (transpose S128x128 [1, 0] (m ((c.tc : Thread nD τ).loc main_arg6)) transposes_S128x128_S128x128_1_0)
          (fun q => m ((c.tc : Thread nD τ).loc main_arg5) (ix1 q)) := by
  unfold Cert.ReferenceIdeal.Value.res_main_v58 twoLayers
  rw [stage_relu_eq, stage_eq]
  simp only [agg, degArr, dstCol, srcCol]

end Cert.ReferenceIdeal.RefValue

end
-- ==== Proof.lean ====
/-
  A two-layer mean-aggregating graph network: the kernel program against its plain array reference, over the extended reals.

  Each layer gathers every edge's source row of the node features, scatter-adds it to the edge's destination row,
  divides each row by the node's in-degree (at least one), and applies two dense maps and a bias:

      out[p, q] = ∑ₖ mean[p, k] · Wl[q, k]  +  ∑ₖ x[p, k] · Wr[q, k]  +  b[q],

  the first layer followed by a rectifier. The kernel program does the gather, the scatter-add and the degree count on the
  host, by the same operations as the reference, and the division, the two products, the bias and the rectifier in a
  kernel that walks the node rows in blocks of 5000; it adds the bias last where the reference adds it between the two
  products, which on the extended reals is the same sum (addition there is commutative and associative, infinities
  included). Roundings to a narrower float format are the identity on the extended reals. So both programs compute
  `SageLayer.twoLayers` of the same arguments; the finiteness of the inputs is not needed.

  The three frames: the two kernel programs' are the generated frame certificates; the reference's is its generated run
  with the result dropped. The idealization rewrote nothing, so `preserves` is trivial.
-/
import proofs.«152677_j5428838662375_1_alg».proof.Defs
import proofs.«152677_j5428838662375_1_alg».proof.Proof.Gen.Kernel
import proofs.«152677_j5428838662375_1_alg».proof.Proof.Gen.Kernel.Skeleton
import proofs.«152677_j5428838662375_1_alg».proof.Proof.Gen.Kernel.Launch
import proofs.«152677_j5428838662375_1_alg».proof.Proof.Gen.Kernel.Points
import proofs.«152677_j5428838662375_1_alg».proof.Proof.Gen.Kernel.Frame
import proofs.«152677_j5428838662375_1_alg».proof.Proof.Gen.KernelIdeal
import proofs.«152677_j5428838662375_1_alg».proof.Proof.Gen.KernelIdeal.Skeleton
import proofs.«152677_j5428838662375_1_alg».proof.Proof.Gen.KernelIdeal.Launch
import proofs.«152677_j5428838662375_1_alg».proof.Proof.Gen.KernelIdeal.Points
import proofs.«152677_j5428838662375_1_alg».proof.Proof.Gen.KernelIdeal.Frame
import proofs.«152677_j5428838662375_1_alg».proof.Proof.Gen.ReferenceIdeal
import proofs.«152677_j5428838662375_1_alg».proof.Proof.Gen.ReferenceIdeal.Run
import proofs.«152677_j5428838662375_1_alg».proof.Proof.Gen.Pre_finite_inputs
import proofs.«152677_j5428838662375_1_alg».proof.Proof.KValue
import proofs.«152677_j5428838662375_1_alg».proof.Proof.RefSide
import Idealize.ShloMosaic.Adequacy
import Idealize.ShloMosaic.Init

noncomputable section

namespace Cert.Proof

open Idealize.ShloMosaic Idealize.SL.Sem Idealize.ShloMosaic.ValueIdx Cert.SageLayer

/-- The reference's neighbour sums are the kernel program's, when the two edge lists agree: the same gather and
    scatter-add over the same index columns. -/
theorem agg_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.RefValue.agg m' c = Cert.KernelIdeal.HostValue.agg m c := by
  unfold Cert.ReferenceIdeal.RefValue.agg Cert.ReferenceIdeal.RefValue.dstCol Cert.ReferenceIdeal.RefValue.srcCol
  rw [h7]
  rfl

/-- The in-degrees likewise. -/
theorem deg_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.RefValue.degArr m' c = Cert.KernelIdeal.HostValue.degArr m c := by
  unfold Cert.ReferenceIdeal.RefValue.degArr Cert.ReferenceIdeal.RefValue.dstCol
  rw [h7]
  rfl

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => twoLayers (Cert.KernelIdeal.HostValue.agg m c) (fun p => Cert.KernelIdeal.HostValue.degArr m c (ix1 p))
      (m ((c.tc : Thread Cert.KernelIdeal.nD Cert.KernelIdeal.τ).loc Cert.KernelIdeal.main_arg0))
      (transpose Cert.KernelIdeal.S128x128 [1, 0] (m ((c.tc : Thread Cert.KernelIdeal.nD Cert.KernelIdeal.τ).loc Cert.KernelIdeal.main_arg1)) Cert.KernelIdeal.Facts₀.transposes_S128x128_S128x128_1_0)
      (transpose Cert.KernelIdeal.S128x128 [1, 0] (m ((c.tc : Thread Cert.KernelIdeal.nD Cert.KernelIdeal.τ).loc Cert.KernelIdeal.main_arg3)) Cert.KernelIdeal.Facts₀.transposes_S128x128_S128x128_1_0)
      (fun q => m ((c.tc : Thread Cert.KernelIdeal.nD Cert.KernelIdeal.τ).loc Cert.KernelIdeal.main_arg2) (ix1 q))
      (transpose Cert.KernelIdeal.S128x128 [1, 0] (m ((c.tc : Thread Cert.KernelIdeal.nD Cert.KernelIdeal.τ).loc Cert.KernelIdeal.main_arg4)) Cert.KernelIdeal.Facts₀.transposes_S128x128_S128x128_1_0)
      (transpose Cert.KernelIdeal.S128x128 [1, 0] (m ((c.tc : Thread Cert.KernelIdeal.nD Cert.KernelIdeal.τ).loc Cert.KernelIdeal.main_arg6)) Cert.KernelIdeal.Facts₀.transposes_S128x128_S128x128_1_0)
      (fun q => m ((c.tc : Thread Cert.KernelIdeal.nD Cert.KernelIdeal.τ).loc Cert.KernelIdeal.main_arg5) (ix1 q)),
    Cert.KernelIdeal.HostValue.run m ρ, ?_⟩
  refine (θ_run Cert.ReferenceIdeal.defs _ _).mono (fun _ h c => ?_) (Cert.ReferenceIdeal.Value.run (F := Ideal) m' ρ')
  refine ⟨(h c).1.trans ?_, (h c).2⟩
  obtain ⟨a0, a1, a2, a3, a4, a5, a6, a7⟩ := hagree c
  rw [Cert.ReferenceIdeal.RefValue.ref_value m' c, agg_eq m m' c a7, deg_eq m m' c a7, a0, a1, a2, a3, a4, a5, a6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
